-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x768 : Shape := ⟨3, ![64, 2048, 768]⟩
abbrev S64x49152 : Shape := ⟨2, ![64, 49152]⟩
abbrev S_ : Shape := ⟨0, ![]⟩

class Facts : Prop where
  bcast_S_S64x2048x768 : S_.BroadcastsInDim S64x2048x768 (![] : Fin 0 → Fin S64x2048x768.rank)
  reducesTo_S64x2048x768_S_d0_1_2 : S64x2048x768.ReducesTo [0, 1, 2] S_
  h_S_ : 0 < S_.numel
  bcast_S_S64x49152 : S_.BroadcastsInDim S64x49152 (![] : Fin 0 → Fin S64x49152.rank)
  reducesTo_S64x49152_S_d0_1 : S64x49152.ReducesTo [0, 1] S_

variable [Facts]

def fn {F : FTy → Type} [FloatOps F] (main_arg0 : FVec F S64x2048x768 .f32) (main_arg1 : FVec F S64x49152 .f32) : IVec S_ 1 :=
  let main_v0 : FVec F S64x2048x768 .f32 := Host.absf main_arg0
  let main_cst : FVec F S_ .f32 := constant S_ .f32 0x7F800000#32
  let main_v1 : FVec F S64x2048x768 .f32 := broadcastInDim S64x2048x768 ![] bcast_S_S64x2048x768 main_cst
  let main_v2 : IVec S64x2048x768 1 := cmpf .olt main_v0 main_v1
  let main_c : IVec S_ 1 := constantI S_ 1 1#1
  let main_v3 : IVec S_ 1 := (fun x v => Host.reduce IntOp.andi x v reducesTo_S64x2048x768_S_d0_1_2 h_S_) main_v2 main_c
  let main_v4 : FVec F S64x49152 .f32 := Host.absf main_arg1
  let main_cst_0 : FVec F S_ .f32 := constant S_ .f32 0x7F800000#32
  let main_v5 : FVec F S64x49152 .f32 := broadcastInDim S64x49152 ![] bcast_S_S64x49152 main_cst_0
  let main_v6 : IVec S64x49152 1 := cmpf .olt main_v4 main_v5
  let main_c_1 : IVec S_ 1 := constantI S_ 1 1#1
  let main_v7 : IVec S_ 1 := (fun x v => Host.reduce IntOp.andi x v reducesTo_S64x49152_S_d0_1 h_S_) main_v6 main_c_1
  let main_v8 : IVec S_ 1 := andi main_v3 main_v7
  main_v8
-- ==== Kernel.lean ====
abbrev S64x2048x768 : Shape := ⟨3, ![64, 2048, 768]⟩
abbrev S64x49152 : Shape := ⟨2, ![64, 49152]⟩
abbrev S2048x64 : Shape := ⟨2, ![2048, 64]⟩
abbrev S2x2048x768 : Shape := ⟨3, ![2, 2048, 768]⟩
abbrev S64x1536 : Shape := ⟨2, ![64, 1536]⟩
abbrev S1x2048x768 : Shape := ⟨3, ![1, 2048, 768]⟩
abbrev S2048x768 : Shape := ⟨2, ![2048, 768]⟩
abbrev S64x768 : Shape := ⟨2, ![64, 768]⟩
abbrev S2048 : Shape := ⟨1, ![2048]⟩
abbrev S2048x1 : Shape := ⟨2, ![2048, 1]⟩

abbrev nBuf : Space → Nat
  | .hbm => 3
  | .vmem => 6
  | .smem => 0
  | _ => 0

abbrev bufTy : (tb : Table) → Fin (tcTables nBuf tb) → BufTy
  | .hbm, ⟨0, _⟩ => ⟨S64x2048x768, .f32⟩
  | .hbm, ⟨1, _⟩ => ⟨S64x49152, .f32⟩
  | .hbm, ⟨2, _⟩ => ⟨S2048x64, .f32⟩
  | .local _ .vmem, ⟨0, _⟩ => ⟨S2x2048x768, .f32⟩
  | .local _ .vmem, ⟨1, _⟩ => ⟨S2x2048x768, .f32⟩
  | .local _ .vmem, ⟨2, _⟩ => ⟨S64x1536, .f32⟩
  | .local _ .vmem, ⟨3, _⟩ => ⟨S64x1536, .f32⟩
  | .local _ .vmem, ⟨4, _⟩ => ⟨S2048x64, .f32⟩
  | .local _ .vmem, ⟨5, _⟩ => ⟨S2048x64, .f32⟩
  | _, _ => ⟨S64x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 32], ![false, false]⟩

def k0_cond2 (i : grid0.Coords) : BitVec 1 :=
  let arg1 : BitVec 32 := BitVec.ofNat 32 (i 1).val
  let c31_i32 : BitVec 32 := 31#32
  let v17 : BitVec 1 := Scalar.cmpi .eq arg1 c31_i32
  let v18 : BitVec 32 := Scalar.extui v17
  let c0_i32_13 : BitVec 32 := 0#32
  let v19 : BitVec 1 := Scalar.cmpi .ne v18 c0_i32_13
  v19

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2x2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

class Facts₀ : Prop where
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2x2048x768_S1x2048x768_0_0_0 : ∀ a, (![0, 0, 0] : Fin 3 → Nat) a + S1x2048x768.size a ≤ S2x2048x768.size a
  h_S1x2048x768 : 0 < S1x2048x768.numel
  shapeCasts_S1x2048x768_S2048x768 : S1x2048x768.ShapeCasts S2048x768
  inb_S64x1536_S64x768_0_0 : ∀ a, (![0, 0] : Fin 2 → Nat) a + S64x768.size a ≤ S64x1536.size a
  h_S64x768 : 0 < S64x768.numel
  inb_S2x2048x768_S1x2048x768_1_0_0 : ∀ a, (![1, 0, 0] : Fin 3 → Nat) a + S1x2048x768.size a ≤ S2x2048x768.size a
  inb_S64x1536_S64x768_0_768 : ∀ a, (![0, 768] : Fin 2 → Nat) a + S64x768.size a ≤ S64x1536.size a
  reduces_S2048x64_S2048 : S2048x64.Reduces [1] S2048
  shapeCasts_S2048_S2048x1 : S2048.ShapeCasts S2048x1
  broadcasts_S2048x1_S2048x64 : S2048x1.Broadcasts S2048x64
  dot_S2048x768_S64x768_S2048x64_1_1_0_0_n_n_wf : DotDims.WF S2048x768 S64x768 S2048x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2048x768.size a ≤ S64x2048x768.size a
  hwx0_0 : ∀ i : grid0.Coords, EltTy.bits .f32 = 32 ∨ (Rect.block (s := S64x2048x768) S2x2048x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1536.size a ≤ S64x49152.size a
  hwx0_1 : ∀ i : grid0.Coords, EltTy.bits .f32 = 32 ∨ (Rect.block (s := S64x49152) S64x1536.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S2048x64.size a
  hwx0_2 : ∀ i : grid0.Coords, EltTy.bits .f32 = 32 ∨ (Rect.block (s := S2048x64) S2048x64.size (cc0_transform_2 i) (hinb0_2 i)).WholeWords (EltTy.packing .f32)

variable [Facts₀]

def dot_S2048x768_S64x768_S2048x64_1_1_0_0_n_n : DotDims S2048x768 S64x768 S2048x64 where
  lhsContracting := [1]
  rhsContracting := [1]
  lhsNonContracting := [0]
  rhsNonContracting := [0]
  lhsBatch := []
  rhsBatch := []
  wf := dot_S2048x768_S64x768_S2048x64_1_1_0_0_n_n_wf

abbrev win0_0 : Pipeline.Window sig grid0 :=
  Pipeline.Window.ofSpec (Memref.whole main_arg0) S2x2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x64.size cc0_transform_2 reads0_2 true false 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x2048x768 : Shape := ⟨3, ![64, 2048, 768]⟩
abbrev S64x49152 : Shape := ⟨2, ![64, 49152]⟩
abbrev S2048x64x768 : Shape := ⟨3, ![2048, 64, 768]⟩
abbrev S2048x49152 : Shape := ⟨2, ![2048, 49152]⟩
abbrev S49152x64 : Shape := ⟨2, ![49152, 64]⟩
abbrev S2048x64 : Shape := ⟨2, ![2048, 64]⟩
abbrev S_ : Shape := ⟨0, ![]⟩
abbrev S2048 : Shape := ⟨1, ![2048]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S64x2048x768, .f32⟩
  | .hbm, ⟨1, _⟩ => ⟨S64x49152, .f32⟩
  | .hbm, ⟨2, _⟩ => ⟨S2048x64x768, .f32⟩
  | .hbm, ⟨3, _⟩ => ⟨S2048x49152, .f32⟩
  | .hbm, ⟨4, _⟩ => ⟨S49152x64, .f32⟩
  | .hbm, ⟨5, _⟩ => ⟨S2048x64, .f32⟩
  | .hbm, ⟨6, _⟩ => ⟨S_, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S2048x1, .f32⟩
  | .hbm, ⟨12, _⟩ => ⟨S2048x64, .f32⟩
  | .hbm, ⟨13, _⟩ => ⟨S2048x64, .f32⟩
  | .hbm, ⟨14, _⟩ => ⟨S2048x64, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S2048x64, .f32⟩
  | .hbm, ⟨19, _⟩ => ⟨S2048x64, .f32⟩
  | _, _ => ⟨S64x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  transposes_S64x2048x768_S2048x64x768_1_0_2 : S64x2048x768.Transposes [1, 0, 2] S2048x64x768
  shapeCasts_S2048x64x768_S2048x49152 : S2048x64x768.ShapeCasts S2048x49152
  transposes_S64x49152_S49152x64_1_0 : S64x49152.Transposes [1, 0] S49152x64
  reducesTo_S2048x64_S2048_d1 : S2048x64.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  dot_S2048x49152_S49152x64_S2048x64_1_0_0_1_n_n_wf : DotDims.WF S2048x49152 S49152x64 S2048x64 [1] [0] [0] [1] [] []

variable [Facts₀]

def dot_S2048x49152_S49152x64_S2048x64_1_0_0_1_n_n : DotDims S2048x49152 S49152x64 S2048x64 where
  lhsContracting := [1]
  rhsContracting := [0]
  lhsNonContracting := [0]
  rhsNonContracting := [1]
  lhsBatch := []
  rhsBatch := []
  wf := dot_S2048x49152_S49152x64_S2048x64_1_0_0_1_n_n_wf

class Facts : Prop extends Facts₀ where

variable [Facts]
-- ==== Proof.RowSoftmax.lean ====
/-
  The row softmax, and that both programs compute it.

  For a [2048, 64] array of logits `a`, the softmax of row `b` at column `o` is
      exp (a b o - M b) / Σ_k exp (a b k - M b),      M b = max_k a b k   (the fold of `max` from -∞),
  over the extended reals, with the exact exponential and the exact quotient.

  The kernel's last grid point computes this from the finished accumulator: a lane maximum, a subtraction of the
  maximum broadcast along the row, the exponential, a lane sum, and a quotient by the sum broadcast along the row.
  The reference computes it from its matrix product by the same steps as host operations; its only extra step is
  a `maximum` of the row maximum with -∞, which changes nothing on the extended reals, and its row sum starts from
  a zero that adds nothing. So both are `rowSoftmax` of their logits, whatever the logits are (no finiteness is
  used: each step is the same function of the same extended reals on both sides).
-/
import proofs.«112186_g70489003262017_cont_9to1_m_648_15_alg».proof.Proof.Gen.KernelIdeal.Skeleton
import proofs.«112186_g70489003262017_cont_9to1_m_648_15_alg».proof.Proof.Gen.ReferenceIdeal.Read
import Idealize.ShloMosaic.Lib.Pipeline.Value
import Idealize.ShloMosaic.Lib.ValueIdx
import Idealize.ShloMosaic.PureOps.Ideal.Laws

noncomputable section

open Idealize.ShloMosaic Idealize.ShloMosaic.ValueIdx

/-! ## The function -/

namespace Cert.Gate

/-- The shape of the logits and of the result: 2048 rows (tokens) by 64 columns (experts). -/
abbrev Logits : Shape := ⟨2, ![2048, 64]⟩
/-- One value per row. -/
abbrev Rows : Shape := ⟨1, ![2048]⟩
/-- One value per row, kept as a column. -/
abbrev Column : Shape := ⟨2, ![2048, 1]⟩

/-- The extended real -∞, as the f32 pattern both programs write it. -/
abbrev negInf : EReal := Ideal.ofBits .f32 0xFF800000#32

/-- The maximum of row `b`: the fold of `max` over its 64 entries, from -∞. -/
def rowMax (a : Logits.Idx → EReal) (b : Fin 2048) : EReal :=
  (Finset.univ : Finset (Fin 64)).fold max negInf (fun k => a (ix2 b k))

/-- The exponential of an entry's distance below its row's maximum. -/
def rowExp (a : Logits.Idx → EReal) (b : Fin 2048) (k : Fin 64) : EReal :=
  Ideal.exp (a (ix2 b k) - rowMax a b)

/-- The row softmax. -/
def rowSoftmax (a : Logits.Idx → EReal) : Logits.Idx → EReal := fun i =>
  Ideal.div (rowExp a (i 0) (i 1)) (∑ k : Fin 64, rowExp a (i 0) k)

/-- -∞ is the bottom of the extended reals: a maximum with it is the other argument. -/
theorem max_negInf (y : EReal) : max negInf y = y := by
  show max (Ideal.ofBits .f32 0xFF800000#32) y = y
  simp [Ideal.ofBits, Ideal.ieee]

/-- Putting column coordinate `k` back into the row index `b` gives the entry (b, k). -/
theorem lift_row (h : Logits.Reduces [1] Rows) (b : Fin 2048) (k : Fin (Logits.size 1)) :
    h.lift (ix1 b) k = ix2 b (⟨k.val, k.isLt⟩ : Fin 64) := by
  funext c; apply Fin.ext
  fin_cases c <;> rfl

/-- A per-row value kept as a column reads, at row `b`, the value of row `b`. -/
theorem column_apply (v : Rows.Idx → EReal) (h : Rows.ShapeCasts Column) (b : Fin 2048) (z : Fin 1) :
    shapeCast Column v h (ix2 b z) = v (ix1 b) :=
  shapeCast_apply v h _ _ (by
    rw [Shape.rowMajor_val_one, Shape.rowMajor_val_two]
    have hz : z.val = 0 := by omega
    show b.val = b.val * 1 + z.val
    rw [hz]; omega)

/-- A column broadcast along the rows reads, at (b, o), the column's entry of row `b`. -/
theorem along_row_apply (v : Column.Idx → EReal) (h : Column.Broadcasts Logits) (b : Fin 2048) (o : Fin 64) :
    broadcastTo Logits v h (ix2 b o) = v (ix2 b (0 : Fin 1)) :=
  broadcastTo_apply v h _ _ (fun a => match a with
    | ⟨0, _⟩ => by show b.val = if (2048 : Nat) = 1 then 0 else b.val; rw [if_neg (by decide)]
    | ⟨1, _⟩ => by show 0 = if (1 : Nat) = 1 then 0 else o.val; rw [if_pos rfl])

/-- A host reduce with a maximum body over the columns, from -∞, at row `b`: the row maximum. -/
theorem hostReduce_max_row (x : FVec Ideal Logits .f32) (h' : Logits.ReducesTo [1] Rows) (h : Logits.Reduces [1] Rows)
    (hu : 0 < (⟨0, ![]⟩ : Shape).numel) (b : Fin 2048) :
    Host.reduce FloatOps.maximumf x (constant (⟨0, ![]⟩ : Shape) .f32 0xFF800000#32) h' hu (ix1 b) = rowMax x b := by
  rw [Host.reduce_eq_fold_single FloatOps.maximumf x _ h' h hu]
  exact congrArg (fun f => (Finset.univ : Finset (Fin 64)).fold max negInf f) (funext fun k => congrArg x (lift_row h b k))

end Cert.Gate

/-! ## The kernel's last point computes it -/

namespace Cert.KernelIdeal.Softmax

open Cert.KernelIdeal Cert.KernelIdeal.Gen Cert.Gate

/-- The kernel's lane maximum of the accumulator, per row. -/
def laneMax (a : FVec Ideal S2048x64 .f32) : FVec Ideal S2048 .f32 :=
  multiReduction (F := Ideal) .maximumf [1] S2048 a 0xFF800000#32 reduces_S2048x64_S2048 (.inl rfl) rfl

/-- A per-row value spread over the row's 64 lanes (kept as a column, then broadcast). -/
def spread (v : FVec Ideal S2048 .f32) : FVec Ideal S2048x64 .f32 :=
  broadcastTo S2048x64 (shapeCast S2048x1 v shapeCasts_S2048_S2048x1) broadcasts_S2048x1_S2048x64

/-- The exponentials of the entries' distances below their row maxima. -/
def expBelow (a : FVec Ideal S2048x64 .f32) : FVec Ideal S2048x64 .f32 :=
  exp (subf a (spread (laneMax a)))

/-- The kernel's lane sum, per row. -/
def laneSum (e : FVec Ideal S2048x64 .f32) : FVec Ideal S2048 .f32 :=
  multiReduction (F := Ideal) .add [1] S2048 e 0x00000000#32 reduces_S2048x64_S2048 (.inl rfl) rfl

/-- The softmax payload, stage by stage. -/
theorem payload_eq (a : FVec Ideal S2048x64 .f32) :
    k0_pay3 (F := Ideal) a = divf (expBelow a) (spread (laneSum (expBelow a))) := rfl

theorem spread_apply (v : FVec Ideal S2048 .f32) (b : Fin 2048) (o : Fin 64) : spread v (ix2 b o) = v (ix1 b) :=
  (along_row_apply _ broadcasts_S2048x1_S2048x64 b o).trans (column_apply v shapeCasts_S2048_S2048x1 b 0)

theorem laneMax_apply (a : FVec Ideal S2048x64 .f32) (b : Fin 2048) : laneMax a (ix1 b) = rowMax a b :=
  (Ideal.multiReduction_maximumf_single a 0xFF800000#32 reduces_S2048x64_S2048 (.inl rfl) rfl (ix1 b)).trans
    (congrArg (fun f => (Finset.univ : Finset (Fin 64)).fold max negInf f)
      (funext fun k => congrArg a (lift_row reduces_S2048x64_S2048 b k)))

theorem expBelow_apply (a : FVec Ideal S2048x64 .f32) (b : Fin 2048) (k : Fin 64) : expBelow a (ix2 b k) = rowExp a b k := by
  show Ideal.exp (a (ix2 b k) - spread (laneMax a) (ix2 b k)) = Ideal.exp (a (ix2 b k) - rowMax a b)
  rw [spread_apply, laneMax_apply]

theorem laneSum_apply (e : FVec Ideal S2048x64 .f32) (b : Fin 2048) : laneSum e (ix1 b) = ∑ k : Fin 64, e (ix2 b k) :=
  (Ideal.multiReduction_add_single e 0x00000000#32 reduces_S2048x64_S2048 (.inl rfl) rfl (ix1 b)).trans
    (Finset.sum_congr rfl fun k _ => congrArg e (lift_row reduces_S2048x64_S2048 b k))

/-- The kernel's softmax payload of an accumulator `a` is the row softmax of `a`. -/
theorem payload_softmax (a : FVec Ideal S2048x64 .f32) : k0_pay3 (F := Ideal) a = rowSoftmax a := by
  rw [payload_eq]
  funext i
  obtain ⟨b, o, rfl⟩ : ∃ (b : Fin 2048) (o : Fin 64), i = ix2 b o := ⟨i 0, i 1, eq_ix2 i⟩
  show Ideal.div (expBelow a (ix2 b o)) (spread (laneSum (expBelow a)) (ix2 b o)) = Ideal.div (rowExp a b o) (∑ k : Fin 64, rowExp a b k)
  rw [spread_apply, laneSum_apply, expBelow_apply]
  exact congrArg (Ideal.div (rowExp a b o)) (Finset.sum_congr rfl fun k _ => expBelow_apply a b k)

end Cert.KernelIdeal.Softmax

/-! ## The reference computes it -/

namespace Cert.ReferenceIdeal.Softmax

open Cert.ReferenceIdeal Cert.ReferenceIdeal.Gen Cert.ReferenceIdeal.Read Cert.Gate

variable (x0 : (⟨S64x2048x768, .f32⟩ : BufTy).Contents (Elt Ideal)) (x1 : (⟨S64x49152, .f32⟩ : BufTy).Contents (Elt Ideal))

/-- The reference's reduce with a maximum body, at row `b`, is the row maximum of its matrix product. -/
theorem hostMax_apply (b : Fin 2048) : val_main_v4 (F := Ideal) x0 x1 (ix1 b) = rowMax (val_main_v3 (F := Ideal) x0 x1) b := by
  unfold val_main_v4
  exact hostReduce_max_row (val_main_v3 (F := Ideal) x0 x1) reducesTo_S2048x64_S2048_d1 (by decide) h_S_ b

/-- The maximum the reference subtracts, spread over row `b`: the row maximum (the extra `maximum` with -∞ is the identity). -/
theorem hostSpreadMax_apply (b : Fin 2048) (o : Fin 64) :
    val_main_v8 (F := Ideal) x0 x1 (ix2 b o) = rowMax (val_main_v3 (F := Ideal) x0 x1) b := by
  rw [val_main_v8_apply, val_main_v7_apply, val_main_v6_apply, val_main_v5_apply, val_main_cst_0_apply]
  have e : idx_main_v7 (idx_main_v8 (ix2 b o)) = ix1 b := funext fun a => Fin.ext (by match a with | ⟨0, _⟩ => rfl)
  rw [e, hostMax_apply]
  exact max_negInf _

/-- The reference's exponentials. -/
theorem hostExp_apply (b : Fin 2048) (k : Fin 64) :
    val_main_v10 (F := Ideal) x0 x1 (ix2 b k) = rowExp (val_main_v3 (F := Ideal) x0 x1) b k := by
  rw [val_main_v10_apply, val_main_v9_apply, hostSpreadMax_apply]
  generalize val_main_v3 (F := Ideal) x0 x1 = a
  rfl

/-- The reference's row sum, spread over row `b`: the sum of the row's exponentials (its initial zero adds nothing). -/
theorem hostSpreadSum_apply (b : Fin 2048) (o : Fin 64) :
    val_main_v13 (F := Ideal) x0 x1 (ix2 b o) = ∑ k : Fin 64, rowExp (val_main_v3 (F := Ideal) x0 x1) b k := by
  rw [val_main_v13_apply, val_main_v12_apply, val_main_v11_apply, val_main_cst_1_apply]
  show Ideal.ofBits .f32 0x00000000#32 + _ = _
  rw [Ideal.ofBits_zero_f32, zero_add]
  refine Finset.sum_congr rfl fun k _ => ?_
  have e : idx_main_v11 (idx_main_v12 (idx_main_v13 (ix2 b o))) k = ix2 b k :=
    funext fun a => Fin.ext (by match a with | ⟨0, _⟩ => rfl | ⟨1, _⟩ => rfl)
  rw [e, hostExp_apply]

/-- The reference's result is the row softmax of its matrix product. -/
theorem result_softmax : val_main_v14 (F := Ideal) x0 x1 = rowSoftmax (val_main_v3 (F := Ideal) x0 x1) := by
  funext i
  obtain ⟨b, o, rfl⟩ : ∃ (b : Fin 2048) (o : Fin 64), i = ix2 b o := ⟨i 0, i 1, eq_ix2 i⟩
  rw [val_main_v14_apply, hostExp_apply, hostSpreadSum_apply]
  generalize val_main_v3 (F := Ideal) x0 x1 = a
  rfl

end Cert.ReferenceIdeal.Softmax

end
-- ==== Proof.GateLogits.lean ====
/-
  The gate's logits as one sum, and that sum cut along the kernel's grid.

  With `X : [64, 2048, 768]` the experts' embeddings and `W : [64, 49152]` the gate's weight, the logit of token `b`
  for expert `o` is
      Σ_{k < 49152} X[k / 768, b, k % 768] · W[o, k]:
  the concatenation of the 64 embeddings of token `b` (768 numbers each) against row `o` of the weight.
  The kernel walks `k` in 32 runs of 1536 = 2 · 768 consecutive indices (two experts per grid point), so the
  sum over the first `n` runs, `partialLogit X W n`, grows by two sums of 768 terms per point
  (`partialLogit_succ`), starts from nothing (`partialLogit_zero`), and after 32 points is the whole logit.
  Addition of extended reals is commutative and associative, so no finiteness is needed to regroup the sum.
-/
import Idealize.ShloMosaic.Lib.ValueIdx
import Mathlib.Algebra.BigOperators.Fin

noncomputable section

open Idealize.ShloMosaic Idealize.ShloMosaic.ValueIdx

namespace Cert.Gate

/-- The experts' embeddings: 64 experts, 2048 tokens, 768 features. -/
abbrev Embs : Shape := ⟨3, ![64, 2048, 768]⟩
/-- The gate's weight: 64 output experts by 64 · 768 concatenated features. -/
abbrev Weights : Shape := ⟨2, ![64, 49152]⟩
/-- The logits: 2048 tokens by 64 experts. -/
abbrev LogitShape : Shape := ⟨2, ![2048, 64]⟩

/-- Term `k` of the logit of token `b` for expert `o`: feature `k % 768` of expert `k / 768`'s embedding of the token,
    times the weight's entry (o, k). (Total in `k`; only `k < 49152` is ever summed.) -/
def term (X : Embs.Idx → EReal) (W : Weights.Idx → EReal) (b : Fin 2048) (o : Fin 64) (k : ℕ) : EReal :=
  X (ix3 (⟨k / 768 % 64, Nat.mod_lt _ (by decide)⟩ : Fin 64) b (⟨k % 768, Nat.mod_lt _ (by decide)⟩ : Fin 768))
    * W (ix2 o (⟨k % 49152, Nat.mod_lt _ (by decide)⟩ : Fin 49152))

/-- The logits summed over the first `n` runs of 1536 indices. -/
def partialLogit (X : Embs.Idx → EReal) (W : Weights.Idx → EReal) (n : ℕ) : LogitShape.Idx → EReal := fun i =>
  ∑ k ∈ Finset.range (1536 * n), term X W (i 0) (i 1) k

/-- The logits. -/
def logits (X : Embs.Idx → EReal) (W : Weights.Idx → EReal) : LogitShape.Idx → EReal := partialLogit X W 32

theorem partialLogit_zero (X : Embs.Idx → EReal) (W : Weights.Idx → EReal) (i : LogitShape.Idx) :
    partialLogit X W 0 i = 0 := by
  unfold partialLogit
  rw [Nat.mul_zero, Finset.range_zero, Finset.sum_empty]

/-- One more run: the two experts' 768 terms each, after what was summed before. -/
theorem partialLogit_succ (X : Embs.Idx → EReal) (W : Weights.Idx → EReal) (n : ℕ) (i : LogitShape.Idx) :
    partialLogit X W (n + 1) i
      = partialLogit X W n i + (∑ d : Fin 768, term X W (i 0) (i 1) (1536 * n + d.val))
          + ∑ d : Fin 768, term X W (i 0) (i 1) (1536 * n + 768 + d.val) := by
  unfold partialLogit
  rw [show 1536 * (n + 1) = 1536 * n + 768 + 768 by omega, Finset.sum_range_add, Finset.sum_range_add,
    Finset.sum_range (fun x => term X W (i 0) (i 1) (1536 * n + x)),
    Finset.sum_range (fun x => term X W (i 0) (i 1) (1536 * n + 768 + x))]

/-- The whole logit as a sum over `Fin 49152`. -/
theorem logits_apply (X : Embs.Idx → EReal) (W : Weights.Idx → EReal) (i : LogitShape.Idx) :
    logits X W i = ∑ k : Fin 49152, term X W (i 0) (i 1) k.val := by
  unfold logits partialLogit
  rw [show 1536 * 32 = 49152 by decide, Finset.sum_range]

end Cert.Gate

end
-- ==== Proof.RefLogits.lean ====
/-
  The reference's matrix product is the gate's logits.

  The reference transposes the embeddings to [2048, 64, 768], flattens the last two axes to 49152, transposes the
  weight to [49152, 64] and takes one `dot_general` over the 49152 axis. Read at (b, o), entry `k` of the
  flattened row `b` is feature `k % 768` of expert `k / 768` for token `b`, and entry (k, o) of the transposed weight is
  the weight's (o, k): term `k` of the logit.
-/
import proofs.«112186_g70489003262017_cont_9to1_m_648_15_alg».proof.Proof.Gen.ReferenceIdeal.Read
import proofs.«112186_g70489003262017_cont_9to1_m_648_15_alg».proof.Proof.GateLogits

noncomputable section

open Idealize.ShloMosaic Idealize.ShloMosaic.ValueIdx

namespace Cert.ReferenceIdeal.Logits

open Cert.ReferenceIdeal Cert.ReferenceIdeal.Gen Cert.ReferenceIdeal.Read Cert.Gate

variable (x0 : (⟨S64x2048x768, .f32⟩ : BufTy).Contents (Elt Ideal)) (x1 : (⟨S64x49152, .f32⟩ : BufTy).Contents (Elt Ideal))

/-- Entry `k` of token `b`'s flattened row is the embedding's entry (k / 768, b, k % 768). -/
theorem flat_index (b : Fin 2048) (o : Fin 64) (k : Fin 49152) :
    idx_main_v0 (idx_main_v1 (lidx_main_v3 (ix2 b o) k))
      = ix3 (⟨k.val / 768 % 64, Nat.mod_lt _ (by decide)⟩ : Fin 64) b (⟨k.val % 768, Nat.mod_lt _ (by decide)⟩ : Fin 768) := by
  have hb : b.val < 2048 := b.isLt
  have hk : k.val < 49152 := k.isLt
  funext a
  apply Fin.ext
  match a with
  | ⟨0, _⟩ => show (b.val * 49152 + k.val) / 768 % 64 = k.val / 768 % 64; omega
  | ⟨1, _⟩ => show (b.val * 49152 + k.val) / 49152 = b.val; omega
  | ⟨2, _⟩ => show (b.val * 49152 + k.val) % 768 = k.val % 768; omega

/-- Entry (k, o) of the transposed weight is the weight's entry (o, k). -/
theorem weight_index (b : Fin 2048) (o : Fin 64) (k : Fin 49152) :
    idx_main_v2 (ridx_main_v3 (ix2 b o) k) = ix2 o (⟨k.val % 49152, Nat.mod_lt _ (by decide)⟩ : Fin 49152) := by
  have hk : k.val < 49152 := k.isLt
  funext a
  apply Fin.ext
  match a with
  | ⟨0, _⟩ => rfl
  | ⟨1, _⟩ => show k.val = k.val % 49152; omega

/-- The reference's matrix product is the logits of its two arguments. -/
theorem product_eq : val_main_v3 (F := Ideal) x0 x1 = logits x0 x1 := by
  funext i
  obtain ⟨b, o, rfl⟩ : ∃ (b : Fin 2048) (o : Fin 64), i = ix2 b o := ⟨i 0, i 1, eq_ix2 i⟩
  rw [val_main_v3_apply, logits_apply]
  refine Finset.sum_congr rfl fun k _ => ?_
  rw [val_main_v1_apply, val_main_v0_apply, val_main_v2_apply, flat_index, weight_index]
  rfl

end Cert.ReferenceIdeal.Logits

end
-- ==== Proof.PointValues.lean ====
/-
  What one grid point leaves behind, as values.

  The gate kernel walks the 64 experts two at a time: at grid point `t` it holds the block
  `embs[2t .. 2t+1, :, :]` (two [2048, 768] slabs) and the matching 1536 columns `W[:, 1536 t .. 1536 t + 1535]`,
  and adds the two products `embs[2t + j] · W[:, 1536 t + 768 j ..]ᵀ` (j = 0, 1) to a [2048, 64] accumulator that
  lives in scratch memory between points. The first point starts the accumulator from the zero block, the
  last point additionally writes the row softmax of the finished accumulator to the output block.

  This module states those three behaviours as equations between the contents the run found and pure terms:
  `step x0 x1 acc` is the accumulator after one point, from the point's two input blocks and the accumulator
  before; the first point leaves `step x0 x1 zeroBlock`, a middle point `step x0 x1 acc`, and the last point leaves
  `step x0 x1 acc` in the accumulator and the softmax payload of that same term in the output block.
  Everything here holds for any float instance.
-/
import proofs.«112186_g70489003262017_cont_9to1_m_648_15_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Points

open Cert.KernelIdeal Cert.KernelIdeal.Gen

variable {F : FTy → Type} [FloatOps F]

theorem zero_offsets : (![0, 0] : Fin 2 → Nat) = fun _ => 0 := funext fun a => by fin_cases a <;> rfl

/-- The first of the point's two expert slabs: rows `[0, :, :]` of the embedding block. -/
abbrev slabLo (x0 : Vec F S2x2048x768 .f32) : Vec F S1x2048x768 .f32 :=
  View.ld x0 (Rect.unit ![0, 0, 0] S1x2048x768.size inb_S2x2048x768_S1x2048x768_0_0_0)

/-- The second slab: rows `[1, :, :]`. -/
abbrev slabHi (x0 : Vec F S2x2048x768 .f32) : Vec F S1x2048x768 .f32 :=
  View.ld x0 (Rect.unit ![1, 0, 0] S1x2048x768.size inb_S2x2048x768_S1x2048x768_1_0_0)

/-- The weight columns that meet the first slab: columns `0 .. 767` of the weight block. -/
abbrev colsLo (x1 : Vec F S64x1536 .f32) : Vec F S64x768 .f32 :=
  View.ld x1 (Rect.unit ![0, 0] S64x768.size inb_S64x1536_S64x768_0_0)

/-- The weight columns that meet the second slab: columns `768 .. 1535`. -/
abbrev colsHi (x1 : Vec F S64x1536 .f32) : Vec F S64x768 .f32 :=
  View.ld x1 (Rect.unit ![0, 768] S64x768.size inb_S64x1536_S64x768_0_768)

/-- The accumulator after one point: the accumulator before, plus the first slab's product, plus the second's. -/
def step (x0 : Vec F S2x2048x768 .f32) (x1 : Vec F S64x1536 .f32) (acc : Vec F S2048x64 .f32) : Vec F S2048x64 .f32 :=
  k0_pay2 acc (slabLo x0) (colsLo x1) (slabHi x0) (colsHi x1)

/-- The zero block the first point starts from. -/
abbrev zeroBlock : Vec F S2048x64 .f32 := k0_pay1

/-- A middle point (neither first nor last) leaves in the accumulator one step over what it found there. -/
theorem middle_acc (c : Dev nD) (i : grid0.Coords) (a2 : Memref sig .tc .vmem S2x2048x768 .f32) (h2 : a2.IsWhole)
    (a3 : Memref sig .tc .vmem S64x1536 .f32) (h3 : a3.IsWhole) (a4 : Memref sig .tc .vmem S2048x64 .f32) (h4 : a4.IsWhole)
    (a5 : Memref sig .tc .vmem S2048x64 .f32) (h5 : a5.IsWhole) (hc0 : ¬cond0_0 i) (hc1 : ¬cond0_1 i)
    (x0 : Vec F S2x2048x768 .f32) (x1 : Vec F S64x1536 .f32) (xs : Vec F S2048x64 .f32) :
    sout0_B_0 c i a2 h2 a3 h3 a4 h4 a5 h5 hc0 hc1 x0 x1 xs = step x0 x1 xs := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero zero_offsets]
  simp only [View.readAt_eq_ld, h2.read_unread, h3.read_unread, h5.read_unread, View.ld_unit_zero (S := S2048x64) zero_offsets]
  rfl

/-- The first point stores the zero block, reads it back, and leaves one step over it. -/
theorem first_acc (c : Dev nD) (i : grid0.Coords) (a2 : Memref sig .tc .vmem S2x2048x768 .f32) (h2 : a2.IsWhole)
    (a3 : Memref sig .tc .vmem S64x1536 .f32) (h3 : a3.IsWhole) (a4 : Memref sig .tc .vmem S2048x64 .f32) (h4 : a4.IsWhole)
    (a5 : Memref sig .tc .vmem S2048x64 .f32) (h5 : a5.IsWhole) (hc0 : cond0_0 i) (hc1 : ¬cond0_1 i)
    (x0 : Vec F S2x2048x768 .f32) (x1 : Vec F S64x1536 .f32) :
    sout0_A_0 c i a2 h2 a3 h3 a4 h4 a5 h5 hc0 hc1 x0 x1 = step x0 x1 zeroBlock := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S2048x64) zero_offsets, View.readCov_unit_zero (S := S2048x64) _ zero_offsets]
  simp only [View.readAt_eq_ld, h2.read_unread, h3.read_unread]
  rfl

/-- The last point leaves in the accumulator one step over what it found there, -/
theorem last_acc (c : Dev nD) (i : grid0.Coords) (a2 : Memref sig .tc .vmem S2x2048x768 .f32) (h2 : a2.IsWhole)
    (a3 : Memref sig .tc .vmem S64x1536 .f32) (h3 : a3.IsWhole) (a4 : Memref sig .tc .vmem S2048x64 .f32) (h4 : a4.IsWhole)
    (a5 : Memref sig .tc .vmem S2048x64 .f32) (h5 : a5.IsWhole) (hc0 : ¬cond0_0 i) (hc1 : cond0_1 i)
    (x0 : Vec F S2x2048x768 .f32) (x1 : Vec F S64x1536 .f32) (xs : Vec F S2048x64 .f32) :
    sout0_C_0 c i a2 h2 a3 h3 a4 h4 a5 h5 hc0 hc1 x0 x1 xs = step x0 x1 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero zero_offsets]
  simp only [View.readAt_eq_ld, h2.read_unread, h3.read_unread, h5.read_unread, View.ld_unit_zero (S := S2048x64) zero_offsets]
  rfl

/-- and in the output block the softmax payload of that finished accumulator (read back from the scratch it was
    just stored to). -/
theorem last_out (c : Dev nD) (i : grid0.Coords) (a2 : Memref sig .tc .vmem S2x2048x768 .f32) (h2 : a2.IsWhole)
    (a3 : Memref sig .tc .vmem S64x1536 .f32) (h3 : a3.IsWhole) (a4 : Memref sig .tc .vmem S2048x64 .f32) (h4 : a4.IsWhole)
    (a5 : Memref sig .tc .vmem S2048x64 .f32) (h5 : a5.IsWhole) (hc0 : ¬cond0_0 i) (hc1 : cond0_1 i)
    (x0 : Vec F S2x2048x768 .f32) (x1 : Vec F S64x1536 .f32) (xs : Vec F S2048x64 .f32) :
    out0_C_2 c i a2 h2 a3 h3 a4 h4 a5 h5 hc0 hc1 x0 x1 xs = k0_pay3 (step x0 x1 xs) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero zero_offsets, View.readCov_unit_zero (S := S2048x64) _ zero_offsets]
  simp only [View.readAt_eq_ld, h2.read_unread, h3.read_unread, h5.read_unread, View.ld_unit_zero (S := S2048x64) zero_offsets]
  rfl

end Cert.KernelIdeal.Points

end
-- ==== Proof.StepValue.lean ====
/-
  One step of the accumulator, entry by entry, on the extended reals.

  At a grid point the kernel holds two [2048, 768] slabs of embeddings (two experts) and the [64, 1536] block of
  weight columns that meet them. Each product `slab · colsᵀ` contracts the 768 features: its entry (b, o) is
  `Σ_{d < 768} slab[b, d] · cols[o, d]` (the matrix unit accumulates into a zero block, which adds nothing). So
  the accumulator's entry (b, o) grows by the first expert's 768 products and then by the second's.
-/
import proofs.«112186_g70489003262017_cont_9to1_m_648_15_alg».proof.Proof.PointValues
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.StepValue

open Cert.KernelIdeal Cert.KernelIdeal.Gen Cert.KernelIdeal.Points

/-! ## The product's operand indices: a row of the slab against a row of the columns -/

theorem lhs_axis0 (i : S2048x64.Idx) (q : dot_S2048x768_S64x768_S2048x64_1_1_0_0_n_n.contr.Idx) :
    (dot_S2048x768_S64x768_S2048x64_1_1_0_0_n_n.lhsIdx i q 0).val = (i 0).val := by
  unfold DotDims.lhsIdx
  rw [dif_neg (show ¬(0 : Fin S2048x768.rank) ∈ dot_S2048x768_S64x768_S2048x64_1_1_0_0_n_n.lhsBatch by decide), dif_pos (show (0 : Fin S2048x768.rank) ∈ dot_S2048x768_S64x768_S2048x64_1_1_0_0_n_n.lhsNonContracting by decide)]
  rfl
theorem lhs_axis1 (i : S2048x64.Idx) (q : dot_S2048x768_S64x768_S2048x64_1_1_0_0_n_n.contr.Idx) :
    (dot_S2048x768_S64x768_S2048x64_1_1_0_0_n_n.lhsIdx i q 1).val = (q ⟨0, by decide⟩).val :=
  dot_S2048x768_S64x768_S2048x64_1_1_0_0_n_n.lhsIdx_val_of_single rfl i q
theorem rhs_axis0 (i : S2048x64.Idx) (q : dot_S2048x768_S64x768_S2048x64_1_1_0_0_n_n.contr.Idx) :
    (dot_S2048x768_S64x768_S2048x64_1_1_0_0_n_n.rhsIdx i q 0).val = (i 1).val := by
  unfold DotDims.rhsIdx
  rw [dif_neg (show ¬(0 : Fin S64x768.rank) ∈ dot_S2048x768_S64x768_S2048x64_1_1_0_0_n_n.rhsBatch by decide), dif_pos (show (0 : Fin S64x768.rank) ∈ dot_S2048x768_S64x768_S2048x64_1_1_0_0_n_n.rhsNonContracting by decide)]
  rfl
theorem rhs_axis1 (i : S2048x64.Idx) (q : dot_S2048x768_S64x768_S2048x64_1_1_0_0_n_n.contr.Idx) :
    (dot_S2048x768_S64x768_S2048x64_1_1_0_0_n_n.rhsIdx i q 1).val = (q ⟨0, by decide⟩).val :=
  dot_S2048x768_S64x768_S2048x64_1_1_0_0_n_n.rhsIdx_val_of_single rfl i q

/-- A slab times the transposed columns, into a zero block: entry (b, o) is the sum over the 768 features of the
    slab's row `b` against the columns' row `o`. -/
theorem product_apply (l : FVec Ideal S2048x768 .f32) (r : FVec Ideal S64x768 .f32) (b : Fin 2048) (o : Fin 64) :
    matmul (F := Ideal) dot_S2048x768_S64x768_S2048x64_1_1_0_0_n_n none l r (constant (F := Ideal) S2048x64 .f32 0x00000000#32) (ix2 b o)
      = ∑ d : Fin 768, l (ix2 b d) * r (ix2 o d) := by
  simp only [matmul]
  rw [Ideal.matmul_constant_zero_apply, ← Equiv.sum_comp (ValueIdx.contrEquiv1 dot_S2048x768_S64x768_S2048x64_1_1_0_0_n_n 768 rfl rfl).symm]
  refine Finset.sum_congr rfl fun k _ => ?_
  have hk := ValueIdx.contrEquiv1_symm_val dot_S2048x768_S64x768_S2048x64_1_1_0_0_n_n 768 rfl rfl k
  have el : dot_S2048x768_S64x768_S2048x64_1_1_0_0_n_n.lhsIdx (ix2 b o) ((ValueIdx.contrEquiv1 dot_S2048x768_S64x768_S2048x64_1_1_0_0_n_n 768 rfl rfl).symm k) = ix2 b k := funext fun a => Fin.ext (by
    match a with
    | ⟨0, _⟩ => exact lhs_axis0 _ _
    | ⟨1, _⟩ => exact (lhs_axis1 _ _).trans hk)
  have er : dot_S2048x768_S64x768_S2048x64_1_1_0_0_n_n.rhsIdx (ix2 b o) ((ValueIdx.contrEquiv1 dot_S2048x768_S64x768_S2048x64_1_1_0_0_n_n 768 rfl rfl).symm k) = ix2 o k := funext fun a => Fin.ext (by
    match a with
    | ⟨0, _⟩ => exact rhs_axis0 _ _
    | ⟨1, _⟩ => exact (rhs_axis1 _ _).trans hk)
  rw [el, er]

/-! ## The loads, read at an entry -/

theorem slabLo_apply (x0 : FVec Ideal S2x2048x768 .f32) (b : Fin 2048) (d : Fin 768) :
    slabLo (F := Ideal) x0 (ix3 (0 : Fin 1) b d) = x0 (ix3 (0 : Fin 2) b d) :=
  congrArg x0 (funext fun a => Fin.ext (by
    match a with
    | ⟨0, _⟩ => rfl
    | ⟨1, _⟩ => show 0 + 1 * b.val = b.val; omega
    | ⟨2, _⟩ => show 0 + 1 * d.val = d.val; omega))

theorem slabHi_apply (x0 : FVec Ideal S2x2048x768 .f32) (b : Fin 2048) (d : Fin 768) :
    slabHi (F := Ideal) x0 (ix3 (0 : Fin 1) b d) = x0 (ix3 (1 : Fin 2) b d) :=
  congrArg x0 (funext fun a => Fin.ext (by
    match a with
    | ⟨0, _⟩ => rfl
    | ⟨1, _⟩ => show 0 + 1 * b.val = b.val; omega
    | ⟨2, _⟩ => show 0 + 1 * d.val = d.val; omega))

theorem colsLo_apply (x1 : FVec Ideal S64x1536 .f32) (o : Fin 64) (d : Fin 768) :
    colsLo (F := Ideal) x1 (ix2 o d) = x1 (ix2 o (⟨d.val, by have := d.isLt; omega⟩ : Fin 1536)) :=
  congrArg x1 (funext fun a => Fin.ext (by
    match a with
    | ⟨0, _⟩ => show 0 + 1 * o.val = o.val; omega
    | ⟨1, _⟩ => show 0 + 1 * d.val = d.val; omega))

theorem colsHi_apply (x1 : FVec Ideal S64x1536 .f32) (o : Fin 64) (d : Fin 768) :
    colsHi (F := Ideal) x1 (ix2 o d) = x1 (ix2 o (⟨768 + d.val, by have := d.isLt; omega⟩ : Fin 1536)) :=
  congrArg x1 (funext fun a => Fin.ext (by
    match a with
    | ⟨0, _⟩ => show 0 + 1 * o.val = o.val; omega
    | ⟨1, _⟩ => show 768 + 1 * d.val = 768 + d.val; omega))

/-- The zero block is zero everywhere. -/
theorem zeroBlock_apply (i : S2048x64.Idx) : (zeroBlock (F := Ideal)) i = 0 := by
  show shapeCast S2048x64 (broadcast S2048x64 (Scalar.ofBits (F := Ideal) .f32 0x00000000#32)) shapeCasts_S2048x64_S2048x64 i = 0
  rw [shapeCast_self]
  exact Ideal.ofBits_zero_f32

/-! ## The step -/

/-- Entry (b, o) of the accumulator after one point: what it held, plus the first expert's 768 products, plus the
    second's. -/
theorem step_apply (x0 : FVec Ideal S2x2048x768 .f32) (x1 : FVec Ideal S64x1536 .f32) (acc : FVec Ideal S2048x64 .f32)
    (b : Fin 2048) (o : Fin 64) :
    step (F := Ideal) x0 x1 acc (ix2 b o)
      = acc (ix2 b o)
        + (∑ d : Fin 768, x0 (ix3 (0 : Fin 2) b d) * x1 (ix2 o (⟨d.val, by have := d.isLt; omega⟩ : Fin 1536)))
        + ∑ d : Fin 768, x0 (ix3 (1 : Fin 2) b d) * x1 (ix2 o (⟨768 + d.val, by have := d.isLt; omega⟩ : Fin 1536)) := by
  unfold step k0_pay2
  refine (congrFun (shapeCast_self _ shapeCasts_S2048x64_S2048x64) (ix2 b o)).trans ?_
  show (acc (ix2 b o)
      + matmul (F := Ideal) dot_S2048x768_S64x768_S2048x64_1_1_0_0_n_n none (shapeCast S2048x768 (slabLo (F := Ideal) x0) shapeCasts_S1x2048x768_S2048x768) (colsLo (F := Ideal) x1) (constant (F := Ideal) S2048x64 .f32 0x00000000#32) (ix2 b o))
      + matmul (F := Ideal) dot_S2048x768_S64x768_S2048x64_1_1_0_0_n_n none (shapeCast S2048x768 (slabHi (F := Ideal) x0) shapeCasts_S1x2048x768_S2048x768) (colsHi (F := Ideal) x1) (constant (F := Ideal) S2048x64 .f32 0x00000000#32) (ix2 b o) = _
  rw [product_apply, product_apply]
  refine congrArg₂ (· + ·) (congrArg (acc (ix2 b o) + ·) (Finset.sum_congr rfl fun d _ => ?_)) (Finset.sum_congr rfl fun d _ => ?_)
  · rw [shapeCast_1ab_ab_apply, slabLo_apply, colsLo_apply]
  · rw [shapeCast_1ab_ab_apply, slabHi_apply, colsHi_apply]

end Cert.KernelIdeal.StepValue

end
-- ==== Proof.AccumulatorValue.lean ====
/-
  What the accumulator holds after each grid point: the logits summed over the experts seen so far.

  Grid point `t` (0 ≤ t < 32) stages experts `2t` and `2t + 1` of the embeddings and weight columns
  `1536 t .. 1536 t + 1535`. Entry (e, b, d) of the staged embeddings is the array's (2t + e, b, d); entry (o, k) of
  the staged columns is the weight's (o, 1536 t + k). With one step of the accumulator read entry by entry, the
  scratch after point `n` holds `partialLogit X W (n + 1)` — by induction on the point: the first point starts from
  the zero block, every later point adds its two experts to what the point before left. After the last point
  (n = 31) that is the whole logit, and the output block holds its row softmax payload.
-/
import proofs.«112186_g70489003262017_cont_9to1_m_648_15_alg».proof.Proof.StepValue
import proofs.«112186_g70489003262017_cont_9to1_m_648_15_alg».proof.Proof.GateLogits
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Accumulator

open Cert.KernelIdeal Cert.KernelIdeal.Gen Cert.KernelIdeal.Points Cert.KernelIdeal.StepValue Cert.Gate

variable (m : (ℓ : Loc nD τ sig) → Buf (Elt Ideal) ℓ)

/-- The embeddings as the kernel finds them. -/
abbrev embsArr (c : Dev nD) : FVec Ideal S64x2048x768 .f32 := V m c main_arg0
/-- The weight as the kernel finds it. -/
abbrev weightArr (c : Dev nD) : FVec Ideal S64x49152 .f32 := V m c main_arg1
/-- The block of embeddings staged at point `t`. -/
abbrev embsBlk (c : Dev nD) (t : Fin cfg0.N) : FVec Ideal S2x2048x768 .f32 := iblk m c 0 t
/-- The block of weight columns staged at point `t`. -/
abbrev weightBlk (c : Dev nD) (t : Fin cfg0.N) : FVec Ideal S64x1536 .f32 := iblk m c 1 t

/-- Where the two input windows sit at point `t`: the embeddings' block index is (t, 0, 0), the weight's (0, t). -/
theorem window_indices : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = t.val :=
  (by decide +kernel : ∀ t : Fin grid0.N, _)

/-! ## The staged blocks, read in the arrays -/

theorem embsBlk_apply (c : Dev nD) (t : Fin cfg0.N) (e : Fin 2) (b : Fin 2048) (d : Fin 768) :
    embsBlk m c t (ix3 e b d)
      = embsArr m c (ix3 (⟨2 * t.val + e.val, by have := t.isLt; have hN : cfg0.N = 32 := N_0; have := e.isLt; omega⟩ : Fin 64) b d) := by
  show iblk (F := Ideal) m c 0 t (ix3 e b d) = V (F := Ideal) m c main_arg0 _
  unfold iblk
  rw [View.read_apply]
  show V (F := Ideal) m c main_arg0 (((cfg0.win 0).blk t).view.emb (ix3 e b d)) = V (F := Ideal) m c main_arg0 _
  refine congrArg (V (F := Ideal) m c main_arg0) (funext fun a => Fin.ext ?_)
  match a with
  | ⟨0, _⟩ => show win0_0.index t 0 * 2 + 1 * e.val = 2 * t.val + e.val; rw [(window_indices t).1]; omega
  | ⟨1, _⟩ => show win0_0.index t 1 * 2048 + 1 * b.val = b.val; rw [(window_indices t).2.1]; omega
  | ⟨2, _⟩ => show win0_0.index t 2 * 768 + 1 * d.val = d.val; rw [(window_indices t).2.2.1]; omega

theorem weightBlk_apply (c : Dev nD) (t : Fin cfg0.N) (o : Fin 64) (k : Fin 1536) :
    weightBlk m c t (ix2 o k)
      = weightArr m c (ix2 o (⟨1536 * t.val + k.val, by have := t.isLt; have hN : cfg0.N = 32 := N_0; have := k.isLt; omega⟩ : Fin 49152)) := by
  show iblk (F := Ideal) m c 1 t (ix2 o k) = V (F := Ideal) m c main_arg1 _
  unfold iblk
  rw [View.read_apply]
  show V (F := Ideal) m c main_arg1 (((cfg0.win 1).blk t).view.emb (ix2 o k)) = V (F := Ideal) m c main_arg1 _
  refine congrArg (V (F := Ideal) m c main_arg1) (funext fun a => Fin.ext ?_)
  match a with
  | ⟨0, _⟩ => show win0_1.index t 0 * 64 + 1 * o.val = o.val; rw [(window_indices t).2.2.2.1]; omega
  | ⟨1, _⟩ => show win0_1.index t 1 * 1536 + 1 * k.val = 1536 * t.val + k.val; rw [(window_indices t).2.2.2.2]; omega

/-! ## The terms a point adds -/

/-- Term `1536 t + d` of a logit: expert `2 t`, feature `d`, against weight column `1536 t + d`. -/
theorem term_first_expert (X : Embs.Idx → EReal) (W : Weights.Idx → EReal) (b : Fin 2048) (o : Fin 64) (t : ℕ) (ht : t < 32)
    (d : Fin 768) :
    term X W b o (1536 * t + d.val)
      = X (ix3 (⟨2 * t + 0, by omega⟩ : Fin 64) b d) * W (ix2 o (⟨1536 * t + d.val, by have := d.isLt; omega⟩ : Fin 49152)) := by
  have hd : d.val < 768 := d.isLt
  unfold term
  have e0 : (⟨(1536 * t + d.val) / 768 % 64, Nat.mod_lt _ (by decide)⟩ : Fin 64) = ⟨2 * t + 0, by omega⟩ := Fin.ext (by show (1536 * t + d.val) / 768 % 64 = 2 * t + 0; omega)
  have e1 : (⟨(1536 * t + d.val) % 768, Nat.mod_lt _ (by decide)⟩ : Fin 768) = d := Fin.ext (by show (1536 * t + d.val) % 768 = d.val; omega)
  have e2 : (⟨(1536 * t + d.val) % 49152, Nat.mod_lt _ (by decide)⟩ : Fin 49152) = ⟨1536 * t + d.val, by omega⟩ := Fin.ext (by show (1536 * t + d.val) % 49152 = 1536 * t + d.val; omega)
  rw [e0, e1, e2]

/-- Term `1536 t + 768 + d`: expert `2 t + 1`, feature `d`, against weight column `1536 t + 768 + d`. -/
theorem term_second_expert (X : Embs.Idx → EReal) (W : Weights.Idx → EReal) (b : Fin 2048) (o : Fin 64) (t : ℕ) (ht : t < 32)
    (d : Fin 768) :
    term X W b o (1536 * t + 768 + d.val)
      = X (ix3 (⟨2 * t + 1, by omega⟩ : Fin 64) b d) * W (ix2 o (⟨1536 * t + (768 + d.val), by have := d.isLt; omega⟩ : Fin 49152)) := by
  have hd : d.val < 768 := d.isLt
  unfold term
  have e0 : (⟨(1536 * t + 768 + d.val) / 768 % 64, Nat.mod_lt _ (by decide)⟩ : Fin 64) = ⟨2 * t + 1, by omega⟩ := Fin.ext (by show (1536 * t + 768 + d.val) / 768 % 64 = 2 * t + 1; omega)
  have e1 : (⟨(1536 * t + 768 + d.val) % 768, Nat.mod_lt _ (by decide)⟩ : Fin 768) = d := Fin.ext (by show (1536 * t + 768 + d.val) % 768 = d.val; omega)
  have e2 : (⟨(1536 * t + 768 + d.val) % 49152, Nat.mod_lt _ (by decide)⟩ : Fin 49152) = ⟨1536 * t + (768 + d.val), by omega⟩ := Fin.ext (by show (1536 * t + 768 + d.val) % 49152 = 1536 * t + (768 + d.val); omega)
  rw [e0, e1, e2]

/-! ## Each kind of point, at the point's own blocks -/

/-- The first point leaves one step over the zero block. -/
theorem acc_first (c : Dev nD) (t : Fin cfg0.N) (h0 : t.val % 32 = 0) (h1 : ¬t.val % 32 = 31) :
    (outsAt0 m c t.val t.isLt).2 = step (F := Ideal) (embsBlk m c t) (weightBlk m c t) zeroBlock := by
  rw [outsAt0_A m c t h0 h1]
  dsimp only
  exact first_acc (F := Ideal) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- A middle point leaves one step over what the point before left. -/
theorem acc_middle (c : Dev nD) (t : Fin cfg0.N) (h0 : ¬t.val % 32 = 0) (h1 : ¬t.val % 32 = 31) :
    (outsAt0 m c t.val t.isLt).2
      = step (F := Ideal) (embsBlk m c t) (weightBlk m c t) (outsAt0 m c (t.val - 1) (Nat.lt_of_le_of_lt (Nat.sub_le _ _) t.isLt)).2 := by
  rw [outsAt0_B m c t h0 h1]
  dsimp only
  exact middle_acc (F := Ideal) c (grid0.coords t) (ms0_0 t) (hs0_0 t) (ms0_1 t) (hs0_1 t) (ms0_2 t) (hs0_2 t) scM0_0
    (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

/-- The last point leaves one step over what the point before left, -/
theorem acc_last (c : Dev nD) (t : Fin cfg0.N) (h0 : ¬t.val % 32 = 0) (h1 : t.val % 32 = 31) :
    (outsAt0 m c t.val t.isLt).2
      = step (F := Ideal) (embsBlk m c t) (weightBlk m c t) (outsAt0 m c (t.val - 1) (Nat.lt_of_le_of_lt (Nat.sub_le _ _) t.isLt)).2 := by
  rw [outsAt0_C m c t h0 h1]
  dsimp only
  exact last_acc (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-- and, in the output block, the softmax payload of that same accumulator. -/
theorem out_last (c : Dev nD) (t : Fin cfg0.N) (h0 : ¬t.val % 32 = 0) (h1 : t.val % 32 = 31) :
    (outsAt0 m c t.val t.isLt).1 = k0_pay3 (F := Ideal) (outsAt0 m c t.val t.isLt).2 := by
  rw [acc_last m c t h0 h1, outsAt0_C m c t h0 h1]
  dsimp only
  exact last_out (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-! ## The induction over the points -/

/-- One step at point `t` over an accumulator holding the first `t` runs holds the first `t + 1` runs. -/
theorem step_partial (c : Dev nD) (t : Fin cfg0.N) (acc : FVec Ideal S2048x64 .f32)
    (hacc : acc = partialLogit (embsArr m c) (weightArr m c) t.val) :
    step (F := Ideal) (embsBlk m c t) (weightBlk m c t) acc = partialLogit (embsArr m c) (weightArr m c) (t.val + 1) := by
  have ht : t.val < 32 := lt_of_lt_of_eq t.isLt (show cfg0.N = 32 from N_0)
  funext i
  obtain ⟨b, o, rfl⟩ : ∃ (b : Fin 2048) (o : Fin 64), i = ix2 b o := ⟨i 0, i 1, eq_ix2 i⟩
  rw [step_apply, partialLogit_succ, hacc]
  refine congrArg₂ (· + ·) (congrArg (partialLogit (embsArr m c) (weightArr m c) t.val (ix2 b o) + ·) (Finset.sum_congr rfl fun d _ => ?_))
    (Finset.sum_congr rfl fun d _ => ?_)
  · rw [embsBlk_apply, weightBlk_apply]
    exact (term_first_expert (embsArr m c) (weightArr m c) b o t.val ht d).symm
  · rw [embsBlk_apply, weightBlk_apply]
    exact (term_second_expert (embsArr m c) (weightArr m c) b o t.val ht d).symm

/-- The zero block is the empty partial sum. -/
theorem zeroBlock_partial (c : Dev nD) : (zeroBlock (F := Ideal)) = partialLogit (embsArr m c) (weightArr m c) 0 :=
  funext fun i => (zeroBlock_apply i).trans (partialLogit_zero _ _ i).symm

/-- After point `n` the accumulator holds the logits summed over the first `n + 1` runs. -/
theorem acc_eq (c : Dev nD) : ∀ (n : ℕ) (h : n < cfg0.N),
    (outsAt0 m c n h).2 = partialLogit (embsArr m c) (weightArr m c) (n + 1)
  | 0, h => by
    rw [acc_first m c ⟨0, h⟩ rfl (by show ¬(0 : ℕ) % 32 = 31; decide)]
    exact step_partial m c ⟨0, h⟩ _ (zeroBlock_partial m c)
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · rw [acc_last m c ⟨n + 1, h⟩ h0 h1]
      exact step_partial m c ⟨n + 1, h⟩ _ (acc_eq c n (Nat.lt_of_succ_lt h))
    · rw [acc_middle m c ⟨n + 1, h⟩ h0 h1]
      exact step_partial m c ⟨n + 1, h⟩ _ (acc_eq c n (Nat.lt_of_succ_lt h))

/-- After the last point the accumulator holds the logits, -/
theorem acc_final (c : Dev nD) (t : Fin cfg0.N) (ht : t.val = 31) :
    (outsAt0 m c t.val t.isLt).2 = logits (embsArr m c) (weightArr m c) := by
  rw [acc_eq m c t.val t.isLt, ht]
  rfl

/-- and the output block the softmax payload of the logits. -/
theorem out_final (c : Dev nD) (t : Fin cfg0.N) (ht : t.val = 31) :
    (outsAt0 m c t.val t.isLt).1 = k0_pay3 (F := Ideal) (logits (embsArr m c) (weightArr m c)) := by
  rw [out_last m c t (by omega) (by omega), acc_final m c t ht]

end Cert.KernelIdeal.Accumulator

end
-- ==== Proof.KernelResult.lean ====
/-
  The kernel's result array: the row softmax payload of the logits.

  The output window's block never moves (its index is (0, 0) at every point) and is the whole [2048, 64] result
  array; it is written back once, after the last grid point. What that point left in the output block is the
  softmax payload of the finished accumulator, which holds the logits. So after the run the result array holds the
  softmax payload of the logits of the two argument arrays, and the arguments are unchanged.
-/
import proofs.«112186_g70489003262017_cont_9to1_m_648_15_alg».proof.Proof.AccumulatorValue
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Accumulator Cert.Gate

variable (m : (ℓ : Loc nD τ sig) → Buf (Elt Ideal) ℓ) (ρ : Dev nD → PrngReg)

/-- What the result array ends holding: the softmax payload of the logits of the arguments. -/
abbrev result (c : Dev nD) : Buf (Elt Ideal) ((c : Thread nD τ).loc main_v0) :=
  k0_pay3 (F := Ideal) (logits (embsArr m c) (weightArr m c))

/-- The last grid point. -/
abbrev lastPoint : Fin cfg0.N := ⟨31, by rw [show cfg0.N = 32 from N_0]; decide⟩

/-- The one write-back, after the last point, writes the result: the output block at index (0, 0), read through
    zero offsets, is the whole array. -/
theorem flushed_eq (c : Dev nD) (t : Fin cfg0.N) (hf : (cfg0.win 2).flush t = true) :
    (dats m 0 c).flushed 2 t = ((cfg0.win 2).blk t).view.read (Elt Ideal) (result m c) := by
  have hN : cfg0.N = 32 := N_0
  have h31 : t.val = 31 := by have := (flush0_2 t).mp hf; have := t.isLt; omega
  obtain rfl : t = lastPoint := Fin.ext h31
  show (cfg0.win 2).cut (grid0.coords lastPoint) ((dats m 0 c).after 2 lastPoint) = _
  rw [after0_2, out_final m c lastPoint rfl]
  have hz' : (fun a => win0_2.index lastPoint a * main_v0.ty.shape.size a) = fun _ => 0 := funext fun a => by fin_cases a <;> decide
  exact (Memref.read_access_unit_zero (Elt Ideal) main_v0 hz' (fun a => by rw [congrFun hz' a]; simp) (result m c)).symm

/-- The last point's block covers the array, so the array ends holding the result. -/
theorem final_out (c : Dev nD) : (dats m 0 c).arrAt 2 cfg0.N = result m c :=
  (dats m 0 c).arrAt_eq_of_cover 2 (result m c) (flushed_eq m c) fun i =>
    ⟨lastPoint, (flush0_2 lastPoint).mpr rfl, by
      show i ∈ ((View.whole main_v0).slice (win0_2.rect lastPoint)).set
      rw [View.set_slice_whole, Rect.mem_set_unit]
      intro a
      have h0 : (i 0 : Nat) < 2048 := (i 0).isLt
      have h1 : (i 1 : Nat) < 64 := (i 1).isLt
      match a with
      | ⟨0, _⟩ => show win0_2.index lastPoint 0 * win0_2.size 0 ≤ (i 0 : Nat) ∧ (i 0 : Nat) < win0_2.index lastPoint 0 * win0_2.size 0 + win0_2.xsize (grid0.coords lastPoint) 0
                  rw [show win0_2.index lastPoint 0 * win0_2.size 0 = 0 from by decide +kernel, show win0_2.xsize (grid0.coords lastPoint) 0 = 2048 from by decide +kernel]; omega
      | ⟨1, _⟩ => show win0_2.index lastPoint 1 * win0_2.size 1 ≤ (i 1 : Nat) ∧ (i 1 : Nat) < win0_2.index lastPoint 1 * win0_2.size 1 + win0_2.xsize (grid0.coords lastPoint) 1
                  rw [show win0_2.index lastPoint 1 * win0_2.size 1 = 0 from by decide +kernel, show win0_2.xsize (grid0.coords lastPoint) 1 = 64 from by decide +kernel]; omega⟩

/-- The run, read: the result array at the softmax payload of the logits, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_out m c), (h c).2⟩) (Cert.KernelIdeal.Value.run_blocks m ρ)

end Cert.KernelIdeal.Result

end
-- ==== Proof.lean ====
/-
  The gate kernel computes what the reference computes: `softmax_o (Σ_e embs[e] · W_e ᵀ)`.

  The reference concatenates the 64 experts' embeddings of each token into one row of 49152 numbers, multiplies by
  the transposed [64, 49152] weight, and takes the softmax of each row of the [2048, 64] product. The kernel never
  builds the concatenation: it walks the experts two at a time over a grid of 32 points, adds each expert's
  [2048, 768] × [768, 64] product into an accumulator kept in scratch memory, and at the last point writes the row
  softmax of the accumulator to its one output block.

  On the extended reals the two are the same function of the arguments:
    * the accumulator after the last point is `Σ_{k < 49152} embs[k / 768, b, k % 768] · W[o, k]`, the sum cut
      into 32 runs of 2 · 768 terms (AccumulatorValue, over GateLogits' `partialLogit`), and the reference's
      `dot_general` is the same sum (RefLogits); regrouping a sum of extended reals needs no finiteness;
    * both softmaxes are `rowSoftmax` of their logits (RowSoftmax): maximum, subtraction, exponential, sum and
      quotient are the same operations on both sides, the reference's extra maximum with -∞ and its initial zero
      change nothing.
  The kernel's run and its result array are read off the generated frame (PointValues, KernelResult); the
  reference's run is the generated one. The three frames are the generated frames and the reference's run with its
  result dropped; the idealization rewrote nothing, so `preserves` is trivial.
-/
import proofs.«112186_g70489003262017_cont_9to1_m_648_15_alg».proof.Defs
import proofs.«112186_g70489003262017_cont_9to1_m_648_15_alg».proof.Proof.Gen.Kernel
import proofs.«112186_g70489003262017_cont_9to1_m_648_15_alg».proof.Proof.Gen.Kernel.Skeleton
import proofs.«112186_g70489003262017_cont_9to1_m_648_15_alg».proof.Proof.Gen.Kernel.Launch
import proofs.«112186_g70489003262017_cont_9to1_m_648_15_alg».proof.Proof.Gen.Kernel.Points
import proofs.«112186_g70489003262017_cont_9to1_m_648_15_alg».proof.Proof.Gen.Kernel.Frame
import proofs.«112186_g70489003262017_cont_9to1_m_648_15_alg».proof.Proof.Gen.KernelIdeal
import proofs.«112186_g70489003262017_cont_9to1_m_648_15_alg».proof.Proof.Gen.KernelIdeal.Skeleton
import proofs.«112186_g70489003262017_cont_9to1_m_648_15_alg».proof.Proof.Gen.KernelIdeal.Launch
import proofs.«112186_g70489003262017_cont_9to1_m_648_15_alg».proof.Proof.Gen.KernelIdeal.Points
import proofs.«112186_g70489003262017_cont_9to1_m_648_15_alg».proof.Proof.Gen.KernelIdeal.Frame
import proofs.«112186_g70489003262017_cont_9to1_m_648_15_alg».proof.Proof.Gen.ReferenceIdeal
import proofs.«112186_g70489003262017_cont_9to1_m_648_15_alg».proof.Proof.Gen.Pre_finite_inputs
import proofs.«112186_g70489003262017_cont_9to1_m_648_15_alg».proof.Proof.Gen.KernelIdeal.Value
import proofs.«112186_g70489003262017_cont_9to1_m_648_15_alg».proof.Proof.Gen.ReferenceIdeal.Run
import proofs.«112186_g70489003262017_cont_9to1_m_648_15_alg».proof.Proof.Gen.ReferenceIdeal.Read
import proofs.«112186_g70489003262017_cont_9to1_m_648_15_alg».proof.Proof.RowSoftmax
import proofs.«112186_g70489003262017_cont_9to1_m_648_15_alg».proof.Proof.RefLogits
import proofs.«112186_g70489003262017_cont_9to1_m_648_15_alg».proof.Proof.KernelResult
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_kernel : Cert.frame_Kernel :=
  fun m ρ _ => Cert.Kernel.Gen.frame m ρ

/-- So does its idealization. -/
theorem frame_kernelIdeal : Cert.frame_KernelIdeal :=
  fun m ρ _ => Cert.KernelIdeal.Gen.frame m ρ

/-- The reference runs and leaves its arguments unchanged: its run with the result dropped. -/
theorem frame_referenceIdeal : Cert.frame_ReferenceIdeal :=
  fun m ρ _ => (θ_run Cert.ReferenceIdeal.defs _ _).mono (fun _ h c => (h c).2) (Cert.ReferenceIdeal.Value.run (F := Ideal) m ρ)

/-- From arguments that agree, the kernel's result array ends at the softmax payload of the logits, and the
    reference's at the row softmax of its matrix product: the same array of extended reals. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.Softmax.result_softmax,
    Cert.ReferenceIdeal.Logits.product_eq, (hagree c).1, (hagree c).2]
  exact (Cert.KernelIdeal.Softmax.payload_softmax _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
